-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192 : Shape := ⟨1, ![8192]⟩
abbrev S8192x1 : Shape := ⟨2, ![8192, 1]⟩
abbrev S1x8192 : Shape := ⟨2, ![1, 8192]⟩
abbrev S1024x512 : Shape := ⟨2, ![1024, 512]⟩
abbrev S1024x1 : Shape := ⟨2, ![1024, 1]⟩
abbrev S1x1024 : Shape := ⟨2, ![1, 1024]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩

abbrev nBuf : Space → Nat
  | .hbm => 16
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S8192x1, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_24 : BitVec 32 := 0#32
  let v53 : BitVec 1 := Scalar.cmpi .ne v52 c0_i32_24
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S8192x1_S8192 : S8192x1.ShapeCasts S8192
  reducesTo_S8192_S_d0 : S8192.ReducesTo [0] S_
  h_S_ : 0 < S_.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S512x8192 : Shape := ⟨2, ![512, 8192]⟩
abbrev S8192x8192 : Shape := ⟨2, ![8192, 8192]⟩
abbrev S1x8192 : Shape := ⟨2, ![1, 8192]⟩

abbrev nBuf : Space → Nat
  | .hbm => 49
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S512x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x1, .i32⟩
  | .hbm, ⟨30, _⟩ => ⟨S1x8192, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.Pieces.lean ====
/-
  What one run of the kernel body leaves behind, as terms over the body's named arithmetic.

  The body keeps two columns of running sums. At the first key block of a query block it resets both to the zero column and
  then adds the block's row sums; at every later key block it adds the block's row sums to what the point before left; at
  the last key block it also copies both columns into the two result blocks. Each buffer is written through its whole
  extent, so what it holds afterwards is the last value stored.
-/
import proofs.«167037_j4964982194342_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Left

open Cert.KernelIdeal Cert.KernelIdeal.Gen

variable {F : FTy → Type} [FloatOps F]

/-- The zero offsets of a rank-2 rectangle. -/
theorem hz : (![0, 0] : Fin 2 → Nat) = fun _ => 0 := funext fun a => by fin_cases a <;> rfl

/-! ## The first key block of a query block: reset, then add -/

/-- The kept-weights column after the first key block: the zero column plus the block's kept row sums. -/
theorem keptSums_first (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x512 .f32) (x1 : Vec F S1024x512 .f32) (x2 : Vec F S1024x1 .i32) (x3 : Vec F S1x1024 .i32) :
    sout0_A_0 c i arg2 harg2 arg3 harg3 arg4 harg4 arg5 harg5 arg6 harg6 arg7 harg7 arg8 harg8 arg9 harg9 hc0 hc1 x0 x1 x2 x3 = k0_pay1 (k0_pay6 x0 x1 x2 x3) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg8.read_unread, harg9.read_unread,
    View.ld_unit_zero (S := S1024x512) hz, View.ld_unit_zero (S := S1024x1) hz, View.ld_unit_zero (S := S1x1024) hz]

/-- The all-weights column after the first key block: the zero column plus the block's row sums. -/
theorem allSums_first (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x512 .f32) (x1 : Vec F S1024x512 .f32) (x2 : Vec F S1024x1 .i32) (x3 : Vec F S1x1024 .i32) :
    sout0_A_1 c i arg2 harg2 arg3 harg3 arg4 harg4 arg5 harg5 arg6 harg6 arg7 harg7 arg8 harg8 arg9 harg9 hc0 hc1 x0 x1 x2 x3 = k0_pay2 (k0_pay5 x0 x1) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg8.read_unread, harg9.read_unread,
    View.ld_unit_zero (S := S1024x512) hz, View.ld_unit_zero (S := S1024x1) hz, View.ld_unit_zero (S := S1x1024) hz]

/-! ## A middle key block: add to what the point before left -/

/-- The kept-weights column after a middle key block. -/
theorem keptSums_middle (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x512 .f32) (x1 : Vec F S1024x512 .f32) (x2 : Vec F S1024x1 .i32) (x3 : Vec F S1x1024 .i32) (xs0 : Vec F S1024x1 .f32) (xs1 : Vec F S1024x1 .f32) :
    sout0_B_0 c i arg2 harg2 arg3 harg3 arg4 harg4 arg5 harg5 arg6 harg6 arg7 harg7 arg8 harg8 arg9 harg9 hc0 hc1 x0 x1 x2 x3 xs0 xs1 = k0_pay1 (k0_pay6 x0 x1 x2 x3) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S1024x1) hz]
  simp only [View.readAt_eq_ld, harg2.read_unread, harg3.read_unread, harg4.read_unread, harg5.read_unread, harg8.read_unread, harg9.read_unread,
    View.ld_unit_zero (S := S1024x512) hz, View.ld_unit_zero (S := S1024x1) hz, View.ld_unit_zero (S := S1x1024) hz]

/-- The all-weights column after a middle key block. -/
theorem allSums_middle (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x512 .f32) (x1 : Vec F S1024x512 .f32) (x2 : Vec F S1024x1 .i32) (x3 : Vec F S1x1024 .i32) (xs0 : Vec F S1024x1 .f32) (xs1 : Vec F S1024x1 .f32) :
    sout0_B_1 c i arg2 harg2 arg3 harg3 arg4 harg4 arg5 harg5 arg6 harg6 arg7 harg7 arg8 harg8 arg9 harg9 hc0 hc1 x0 x1 x2 x3 xs0 xs1 = k0_pay2 (k0_pay5 x0 x1) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S1024x1) hz]
  simp only [View.readAt_eq_ld, harg2.read_unread, harg3.read_unread, harg4.read_unread, harg5.read_unread, harg8.read_unread, harg9.read_unread,
    View.ld_unit_zero (S := S1024x512) hz, View.ld_unit_zero (S := S1024x1) hz, View.ld_unit_zero (S := S1x1024) hz]

/-! ## The last key block: add, then copy out -/

/-- The kept-weights column after the last key block. -/
theorem keptSums_last (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x512 .f32) (x1 : Vec F S1024x512 .f32) (x2 : Vec F S1024x1 .i32) (x3 : Vec F S1x1024 .i32) (xs0 : Vec F S1024x1 .f32) (xs1 : Vec F S1024x1 .f32) :
    sout0_C_0 c i arg2 harg2 arg3 harg3 arg4 harg4 arg5 harg5 arg6 harg6 arg7 harg7 arg8 harg8 arg9 harg9 hc0 hc1 x0 x1 x2 x3 xs0 xs1 = k0_pay1 (k0_pay6 x0 x1 x2 x3) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1024x1) hz]
  simp only [View.readAt_eq_ld, harg2.read_unread, harg3.read_unread, harg4.read_unread, harg5.read_unread, harg8.read_unread, harg9.read_unread,
    View.ld_unit_zero (S := S1024x512) hz, View.ld_unit_zero (S := S1024x1) hz, View.ld_unit_zero (S := S1x1024) hz]

/-- The all-weights column after the last key block. -/
theorem allSums_last (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x512 .f32) (x1 : Vec F S1024x512 .f32) (x2 : Vec F S1024x1 .i32) (x3 : Vec F S1x1024 .i32) (xs0 : Vec F S1024x1 .f32) (xs1 : Vec F S1024x1 .f32) :
    sout0_C_1 c i arg2 harg2 arg3 harg3 arg4 harg4 arg5 harg5 arg6 harg6 arg7 harg7 arg8 harg8 arg9 harg9 hc0 hc1 x0 x1 x2 x3 xs0 xs1 = k0_pay2 (k0_pay5 x0 x1) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1024x1) hz]
  simp only [View.readAt_eq_ld, harg2.read_unread, harg3.read_unread, harg4.read_unread, harg5.read_unread, harg8.read_unread, harg9.read_unread,
    View.ld_unit_zero (S := S1024x512) hz, View.ld_unit_zero (S := S1024x1) hz, View.ld_unit_zero (S := S1x1024) hz]

/-- The first result block at the last key block: the kept-weights column just computed. -/
theorem keptOut_last (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x512 .f32) (x1 : Vec F S1024x512 .f32) (x2 : Vec F S1024x1 .i32) (x3 : Vec F S1x1024 .i32) (xs0 : Vec F S1024x1 .f32) (xs1 : Vec F S1024x1 .f32) :
    out0_C_4 c i arg2 harg2 arg3 harg3 arg4 harg4 arg5 harg5 arg6 harg6 arg7 harg7 arg8 harg8 arg9 harg9 hc0 hc1 x0 x1 x2 x3 xs0 xs1 = k0_pay1 (k0_pay6 x0 x1 x2 x3) xs0 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1024x1) hz, View.readCov_unit_zero (S := S1024x1) _ hz]
  simp only [View.readAt_eq_ld, harg2.read_unread, harg3.read_unread, harg4.read_unread, harg5.read_unread, harg8.read_unread, harg9.read_unread,
    View.ld_unit_zero (S := S1024x512) hz, View.ld_unit_zero (S := S1024x1) hz, View.ld_unit_zero (S := S1x1024) hz]

/-- The second result block at the last key block: the all-weights column just computed. -/
theorem allOut_last (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x512 .f32) (x1 : Vec F S1024x512 .f32) (x2 : Vec F S1024x1 .i32) (x3 : Vec F S1x1024 .i32) (xs0 : Vec F S1024x1 .f32) (xs1 : Vec F S1024x1 .f32) :
    out0_C_5 c i arg2 harg2 arg3 harg3 arg4 harg4 arg5 harg5 arg6 harg6 arg7 harg7 arg8 harg8 arg9 harg9 hc0 hc1 x0 x1 x2 x3 xs0 xs1 = k0_pay2 (k0_pay5 x0 x1) xs1 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1024x1) hz, View.readCov_unit_zero (S := S1024x1) _ hz]
  simp only [View.readAt_eq_ld, harg2.read_unread, harg3.read_unread, harg4.read_unread, harg5.read_unread, harg8.read_unread, harg9.read_unread,
    View.ld_unit_zero (S := S1024x512) hz, View.ld_unit_zero (S := S1024x1) hz, View.ld_unit_zero (S := S1x1024) hz]

end Cert.KernelIdeal.Left

end
-- ==== Proof.RowAlgebra.lean ====
/-
  The mathematics both programs share, stated once over plain rows and columns of extended reals.

  A row x of 512 entries is scaled to x / max(sqrt(sum_k x_k^2), eps); the similarity of two rows is the sum over k of the
  products of their scaled entries; its weight is exp(2 * similarity). The loss needs, for every query row r, the sum of the
  weights over all 8192 key rows and the sum of the weights over the key rows that carry r's label.

  Also here: a quotient by 1/2 is a product with 2 on every extended real; a column [a, 1] read through the three layout
  operations that make, drop or spread its unit axis; and a sum over the first c + 1024 naturals split into the sum over the
  first c and the sum over the next 1024.
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.NtXent

/-! ## A column vector through the layout operations -/

/-- A vector of `a` entries viewed as a column [a, 1] reads, at (p, u), the vector at p. -/
theorem castToColumn_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    omega)

/-- A column [a, 1] viewed as a vector of `a` entries reads, at p, the column at (p, 0). -/
theorem castFromColumn_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A column [a, 1] spread over b columns reads, at (p, c), the column at (p, 0). -/
theorem spreadColumn_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The constants 2 and 1/2 -/

/-- The word 0x40000000 denotes the real 2. -/
theorem two_word : Ideal.ofBits .f32 0x40000000#32 = ((2 : ℝ) : EReal) := by
  simp [Ideal.ofBits, Ideal.ieee, -EReal.coe_mul]; norm_num

/-- The word 0x3F000000 denotes the real 1/2. -/
theorem half_word : Ideal.ofBits .f32 0x3F000000#32 = ((1 / 2 : ℝ) : EReal) := by
  simp [Ideal.ofBits, Ideal.ieee, -EReal.coe_mul]; norm_num

/-- Dividing by 1/2 is multiplying by 2, at the infinities too. -/
theorem div_half_eq_mul_two (x : EReal) :
    Ideal.div x (Ideal.ofBits .f32 0x3F000000#32) = x * Ideal.ofBits .f32 0x40000000#32 := by
  rw [half_word, two_word, Ideal.div_coe (by norm_num : (1 / 2 : ℝ) ≠ 0), show (1 / (1 / 2 : ℝ)) = 2 by norm_num]

/-! ## Rows, similarities, weights -/

/-- The length of a row, kept at least eps. -/
def clampNorm (row : Fin 512 → EReal) : EReal :=
  max (Ideal.sqrt (∑ k : Fin 512, row k * row k)) (Ideal.ofBits .f32 0x2B8CBCCC#32)

/-- A row's entry divided by the row's clamped length. -/
def unitRow (row : Fin 512 → EReal) (k : Fin 512) : EReal := Ideal.div (row k) (clampNorm row)

/-- exp(2 * <unit ra, unit rb>). -/
def weight (ra rb : Fin 512 → EReal) : EReal :=
  Ideal.exp ((∑ k : Fin 512, unitRow ra k * unitRow rb k) * Ideal.ofBits .f32 0x40000000#32)

/-- A weight kept where the two labels agree, zero elsewhere. -/
def sameLabel (la lb : BitVec 32) (e : EReal) : EReal :=
  Scalar.select (IntOp.cmpi .eq la lb) e (Ideal.ofBits .f32 0x00000000#32)

/-- Row r of a [8192, 512] matrix. -/
def rowOf (X : (⟨2, ![8192, 512]⟩ : Shape).Idx → EReal) (r : Fin 8192) : Fin 512 → EReal := fun k => X (ix2 r k)

/-- The weights of query row r against every key row, summed. -/
def allSum (A B : (⟨2, ![8192, 512]⟩ : Shape).Idx → EReal) (r : Fin 8192) : EReal :=
  ∑ s : Fin 8192, weight (rowOf A r) (rowOf B s)

/-- The weights of query row r against the key rows that carry its label, summed. -/
def posSum (A B : (⟨2, ![8192, 512]⟩ : Shape).Idx → EReal) (L : (⟨1, ![8192]⟩ : Shape).Idx → BitVec 32) (r : Fin 8192) : EReal :=
  ∑ s : Fin 8192, sameLabel (L (ix1 r)) (L (ix1 s)) (weight (rowOf A r) (rowOf B s))

/-! ## From the two sums to the loss -/

/-- The loss from the two vectors of sums: minus the mean over the rows of log(pos / all). Both programs end with exactly
    these host operations, so the two sums are all that has to agree. -/
def lossTail (h : (⟨1, ![8192]⟩ : Shape).ReducesTo [0] ⟨0, ![]⟩) (h0 : 0 < (⟨0, ![]⟩ : Shape).numel)
    (pos all : FVec Ideal ⟨1, ![8192]⟩ .f32) : FVec Ideal ⟨0, ![]⟩ .f32 :=
  Host.negf (Host.divf (Host.reduceAdd (Host.log (Host.divf pos all)) (constant (F := Ideal) ⟨0, ![]⟩ .f32 0x00000000#32) h h0)
    (constant (F := Ideal) ⟨0, ![]⟩ .f32 0x46000000#32))

/-! ## A sum over naturals, one block of 1024 at a time -/

/-- A function on the first n naturals continued by zero. -/
def padded {n : ℕ} (f : Fin n → EReal) (x : ℕ) : EReal := if h : x < n then f ⟨x, h⟩ else 0

theorem padded_of_lt {n : ℕ} (f : Fin n → EReal) {x : ℕ} (h : x < n) : padded f x = f ⟨x, h⟩ := dif_pos h

/-- The first c + 1024 terms are the first c and then the next 1024. -/
theorem sum_range_next_block (g : ℕ → EReal) (c : ℕ) :
    ∑ x ∈ Finset.range (c + 1024), g x = ∑ x ∈ Finset.range c, g x + ∑ q : Fin 1024, g (c + q.val) := by
  rw [Finset.sum_range_add, ← Finset.sum_range (fun x => g (c + x))]

/-- All n terms of a padded function are the function's own. -/
theorem sum_range_padded {n : ℕ} (f : Fin n → EReal) : ∑ x ∈ Finset.range n, padded f x = ∑ s : Fin n, f s := by
  rw [Finset.sum_range]
  exact Finset.sum_congr rfl fun s _ => padded_of_lt f s.isLt

end Cert.NtXent

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.Payloads.lean ====
/-
  The kernel body's arithmetic, read entry by entry over the extended reals.

  One grid point sees a block of 1024 query rows and a block of 1024 key rows. It scales every row to unit length (the
  length kept at least eps), multiplies the scaled query block by the transposed scaled key block, and takes exp(2 * .) of
  every product: entry (p, q) is the weight of query row p against key row q. A second matrix keeps a weight only where
  the two rows' labels agree. Each matrix's row sums are added to a column of running sums, which starts from the zero
  column.
-/
import proofs.«167037_j4964982194342_1_alg».proof.Proof.Gen.KernelIdeal.Skeleton
import proofs.«167037_j4964982194342_1_alg».proof.Proof.RowAlgebra
import proofs.«167037_j4964982194342_1_alg».proof.Proof.LibPlainMatmul
import Idealize.ShloMosaic.Lib.ValueLayout

noncomputable section

open scoped BigOperators
open Idealize.ShloMosaic Idealize.ShloMosaic.ValueIdx

namespace Cert.KernelIdeal.Pay

open Cert.KernelIdeal Cert.KernelIdeal.Gen Cert.NtXent

/-! ## The pieces of the body, named -/

/-- A block with every row divided by its clamped length. -/
def scaled (x : FVec Ideal S1024x512 .f32) : FVec Ideal S1024x512 .f32 :=
  divf x (broadcastTo S1024x512
    (maximumf (sqrt (shapeCast S1024x1 (multiReduction .add [1] S1024 (mulf x x) 0x00000000#32 reduces_S1024x512_S1024 (.inl rfl) rfl) shapeCasts_S1024_S1024x1))
      (broadcast S1024x1 (Scalar.ofBits .f32 0x2B8CBCCC#32))) broadcasts_S1024x1_S1024x512)

/-- exp(2 * a bᵀ), entry by entry. -/
def weights (a b : FVec Ideal S1024x512 .f32) : FVec Ideal S1024x1024 .f32 :=
  exp (mulf (matmul dot_S1024x512_S512x1024_S1024x1024_1_0_0_1_n_n none (truncf .bf16 a bitsLt_bf16_f32)
      (transpose S512x1024 [1, 0] (truncf .bf16 b bitsLt_bf16_f32) transposes_S1024x512_p1_0_S512x1024)
      (constant S1024x1024 .f32 0x00000000#32))
    (broadcast S1024x1024 (Scalar.ofBits .f32 0x40000000#32)))

/-- The weights kept where the query's label equals the key's. -/
def kept (e : FVec Ideal S1024x1024 .f32) (lq : IVec S1024x1 32) (lk : IVec S1x1024 32) : FVec Ideal S1024x1024 .f32 :=
  select (cmpi .eq (broadcastTo S1024x1024 (shapeCast S1024x1 lq shapeCasts_S1024x1_S1024x1) broadcasts_S1024x1_S1024x1024)
      (broadcastTo S1024x1024 (shapeCast S1x1024 lk shapeCasts_S1x1024_S1x1024) broadcasts_S1x1024_S1024x1024))
    e (broadcast S1024x1024 (Scalar.ofBits .f32 0x00000000#32))

/-- A column of running sums with a matrix's row sums added. -/
def addRowSums (rows : FVec Ideal S1024x1024 .f32) (acc : FVec Ideal S1024x1 .f32) : FVec Ideal S1024x1 .f32 :=
  shapeCast S1024x1 (addf acc (shapeCast S1024x1 (multiReduction .add [1] S1024 rows 0x00000000#32 reduces_S1024x1024_S1024 (.inl rfl) rfl) shapeCasts_S1024_S1024x1))
    shapeCasts_S1024x1_S1024x1

/-- The zero column. -/
def zeroColumn : FVec Ideal S1024x1 .f32 :=
  shapeCast S1024x1 (broadcast S1024x1 (Scalar.ofBits .f32 0x00000000#32)) shapeCasts_S1024x1_S1024x1

theorem weightsPayload_eq (x0 x1 : FVec Ideal S1024x512 .f32) : k0_pay5 (F := Ideal) x0 x1 = weights (scaled x0) (scaled x1) := rfl
theorem keptPayload_eq (x0 x1 : FVec Ideal S1024x512 .f32) (x2 : IVec S1024x1 32) (x3 : IVec S1x1024 32) :
    k0_pay6 (F := Ideal) x0 x1 x2 x3 = kept (k0_pay5 (F := Ideal) x0 x1) x2 x3 := rfl
theorem keptSumPayload_eq (v36 : FVec Ideal S1024x1024 .f32) (v37 : FVec Ideal S1024x1 .f32) : k0_pay1 (F := Ideal) v36 v37 = addRowSums v36 v37 := rfl
theorem allSumPayload_eq (v27 : FVec Ideal S1024x1024 .f32) (v44 : FVec Ideal S1024x1 .f32) : k0_pay2 (F := Ideal) v27 v44 = addRowSums v27 v44 := rfl
theorem resetKept_eq : k0_pay3 (F := Ideal) = zeroColumn := rfl
theorem resetAll_eq : k0_pay4 (F := Ideal) = zeroColumn := rfl

/-! ## Each piece at an entry -/

/-- A row's sum of squares: the lane reduction of the squared block at row p. -/
theorem sumSquares_apply (x : FVec Ideal S1024x512 .f32) (hφ : FKind.Formats .f32)
    (hacc : (0x00000000#32 : BitVec 32) = FKind.add.neutral .f32 hφ) (p : Fin 1024) :
    multiReduction .add [1] S1024 (mulf x x) 0x00000000#32 reduces_S1024x512_S1024 hφ hacc (ix1 p)
      = ∑ k : Fin 512, x (ix2 p k) * x (ix2 p k) := by
  refine (Ideal.multiReduction_add_single (mulf x x) _ reduces_S1024x512_S1024 hφ hacc (ix1 p)).trans ?_
  refine Finset.sum_congr rfl fun k _ => ?_
  have e : reduces_S1024x512_S1024.lift (ix1 p) k = ix2 p k :=
    funext fun a => Fin.ext (by match a with | ⟨0, _⟩ => rfl | ⟨1, _⟩ => rfl)
  rw [e]; rfl

/-- A row sum of a square matrix: the lane reduction at row p. -/
theorem rowSum_apply (x : FVec Ideal S1024x1024 .f32) (hφ : FKind.Formats .f32)
    (hacc : (0x00000000#32 : BitVec 32) = FKind.add.neutral .f32 hφ) (p : Fin 1024) :
    multiReduction .add [1] S1024 x 0x00000000#32 reduces_S1024x1024_S1024 hφ hacc (ix1 p) = ∑ q : Fin 1024, x (ix2 p q) := by
  refine (Ideal.multiReduction_add_single x _ reduces_S1024x1024_S1024 hφ hacc (ix1 p)).trans ?_
  refine Finset.sum_congr rfl fun k _ => ?_
  have e : reduces_S1024x1024_S1024.lift (ix1 p) k = ix2 p k :=
    funext fun a => Fin.ext (by match a with | ⟨0, _⟩ => rfl | ⟨1, _⟩ => rfl)
  rw [e]; rfl

/-- The scaled block at (p, k): row p's entry k over row p's clamped length. -/
theorem scaled_apply (x : FVec Ideal S1024x512 .f32) (p : Fin 1024) (k : Fin 512) :
    scaled x (ix2 p k) = unitRow (fun k => x (ix2 p k)) k := by
  show Ideal.div (x (ix2 p k)) (broadcastTo S1024x512 _ broadcasts_S1024x1_S1024x512 (ix2 p k)) = _
  rw [spreadColumn_apply]
  show Ideal.div (x (ix2 p k)) (max (Ideal.sqrt (shapeCast S1024x1 _ shapeCasts_S1024_S1024x1 (ix2 p (0 : Fin 1)))) (Ideal.ofBits .f32 0x2B8CBCCC#32)) = _
  rw [castToColumn_apply]
  exact congrArg (fun s => Ideal.div (x (ix2 p k)) (max (Ideal.sqrt s) (Ideal.ofBits .f32 0x2B8CBCCC#32))) (sumSquares_apply x _ _ p)

/-- The weights at (p, q): exp(2 * the product of row p of a with row q of b). -/
theorem weights_apply (a b : FVec Ideal S1024x512 .f32) (p q : Fin 1024) :
    weights a b (ix2 p q) = Ideal.exp ((∑ k : Fin 512, a (ix2 p k) * b (ix2 q k)) * Ideal.ofBits .f32 0x40000000#32) := by
  show Ideal.exp (FloatOps.matmul dot_S1024x512_S512x1024_S1024x1024_1_0_0_1_n_n none (truncf .bf16 a bitsLt_bf16_f32)
      (transpose S512x1024 [1, 0] (truncf .bf16 b bitsLt_bf16_f32) transposes_S1024x512_p1_0_S512x1024)
      (constant S1024x1024 .f32 0x00000000#32) (ix2 p q) * Ideal.ofBits .f32 0x40000000#32) = _
  rw [Cert.Lib.PlainMatmul.apply dot_S1024x512_S512x1024_S1024x1024_1_0_0_1_n_n rfl rfl rfl rfl rfl rfl]
  refine congrArg (fun s => Ideal.exp (s * Ideal.ofBits .f32 0x40000000#32)) (Finset.sum_congr rfl fun k _ => ?_)
  rw [transpose_ix2_apply]
  rfl

/-- The kept weights at (p, q). -/
theorem kept_apply (e : FVec Ideal S1024x1024 .f32) (lq : IVec S1024x1 32) (lk : IVec S1x1024 32) (p q : Fin 1024) :
    kept e lq lk (ix2 p q) = sameLabel (lq (ix2 p (0 : Fin 1))) (lk (ix2 (0 : Fin 1) q)) (e (ix2 p q)) := by
  show Scalar.select (IntOp.cmpi .eq (broadcastTo S1024x1024 (shapeCast S1024x1 lq shapeCasts_S1024x1_S1024x1) broadcasts_S1024x1_S1024x1024 (ix2 p q))
      (broadcastTo S1024x1024 (shapeCast S1x1024 lk shapeCasts_S1x1024_S1x1024) broadcasts_S1x1024_S1024x1024 (ix2 p q)))
    (e (ix2 p q)) (Ideal.ofBits .f32 0x00000000#32) = _
  rw [spreadColumn_apply, broadcastTo_1b_ab_apply, shapeCast_self, shapeCast_self]
  rfl

/-- The running sums at row p after a matrix's row sums are added. -/
theorem addRowSums_apply (rows : FVec Ideal S1024x1024 .f32) (acc : FVec Ideal S1024x1 .f32) (p : Fin 1024) :
    addRowSums rows acc (ix2 p (0 : Fin 1)) = acc (ix2 p (0 : Fin 1)) + ∑ q : Fin 1024, rows (ix2 p q) := by
  unfold addRowSums
  rw [shapeCast_self]
  show acc (ix2 p (0 : Fin 1)) + shapeCast S1024x1 _ shapeCasts_S1024_S1024x1 (ix2 p (0 : Fin 1)) = _
  rw [castToColumn_apply]
  exact congrArg (fun s => acc (ix2 p (0 : Fin 1)) + s) (rowSum_apply rows _ _ p)

/-- The zero column holds zero. -/
theorem zeroColumn_apply (i : S1024x1.Idx) : zeroColumn i = 0 := by
  unfold zeroColumn
  rw [shapeCast_self]
  exact Ideal.ofBits_zero_f32

/-- The weights payload at (p, q): the weight of the block's query row p against its key row q. -/
theorem weightsPayload_apply (x0 x1 : FVec Ideal S1024x512 .f32) (p q : Fin 1024) :
    k0_pay5 (F := Ideal) x0 x1 (ix2 p q) = weight (fun k => x0 (ix2 p k)) (fun k => x1 (ix2 q k)) := by
  rw [weightsPayload_eq, weights_apply]
  simp only [scaled_apply]
  rfl

/-- The kept-weights column at row p after one block: what it held plus the block's weights of row p against the key rows
    with row p's label. -/
theorem keptStep_apply (x0 x1 : FVec Ideal S1024x512 .f32) (x2 : IVec S1024x1 32) (x3 : IVec S1x1024 32)
    (acc : FVec Ideal S1024x1 .f32) (p : Fin 1024) :
    k0_pay1 (F := Ideal) (k0_pay6 (F := Ideal) x0 x1 x2 x3) acc (ix2 p (0 : Fin 1))
      = acc (ix2 p (0 : Fin 1)) + ∑ q : Fin 1024, sameLabel (x2 (ix2 p (0 : Fin 1))) (x3 (ix2 (0 : Fin 1) q))
          (weight (fun k => x0 (ix2 p k)) (fun k => x1 (ix2 q k))) := by
  rw [keptSumPayload_eq, addRowSums_apply]
  refine congrArg (acc (ix2 p (0 : Fin 1)) + ·) (Finset.sum_congr rfl fun q _ => ?_)
  rw [keptPayload_eq, kept_apply, weightsPayload_apply]

/-- The all-weights column at row p after one block: what it held plus the block's weights of row p. -/
theorem allStep_apply (x0 x1 : FVec Ideal S1024x512 .f32) (acc : FVec Ideal S1024x1 .f32) (p : Fin 1024) :
    k0_pay2 (F := Ideal) (k0_pay5 (F := Ideal) x0 x1) acc (ix2 p (0 : Fin 1))
      = acc (ix2 p (0 : Fin 1)) + ∑ q : Fin 1024, weight (fun k => x0 (ix2 p k)) (fun k => x1 (ix2 q k)) := by
  rw [allSumPayload_eq, addRowSums_apply]
  refine congrArg (acc (ix2 p (0 : Fin 1)) + ·) (Finset.sum_congr rfl fun q _ => ?_)
  rw [weightsPayload_apply]

end Cert.KernelIdeal.Pay

end
-- ==== Proof.BlockReads.lean ====
/-
  Where each block of a grid point lies in the arrays.

  The grid has 8 x 8 points; point t = 8 i + j works on query block i (rows 1024 i .. 1024 i + 1023 of the first matrix and of
  the label column) and on key block j (rows 1024 j .. of the second matrix, columns 1024 j .. of the label row). The label
  column and the label row are the one label vector viewed as [8192, 1] and as [1, 8192].
-/
import proofs.«167037_j4964982194342_1_alg».proof.Proof.Gen.KernelIdeal.Frame
import proofs.«167037_j4964982194342_1_alg».proof.Proof.RowAlgebra
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.NtXent

variable (m : (ℓ : Loc nD τ sig) → Buf (Elt Ideal) ℓ)

/-- The three argument arrays as the program is launched with them. -/
abbrev argA (c : Dev nD) : FVec Ideal S8192x512 .f32 := m ((c : Thread nD τ).loc main_arg0)
abbrev argB (c : Dev nD) : FVec Ideal S8192x512 .f32 := m ((c : Thread nD τ).loc main_arg1)
abbrev argL (c : Dev nD) : IVec S8192 32 := m ((c : Thread nD τ).loc main_arg2)

/-- The blocks of a grid point, at their literal types. -/
abbrev queryBlock (c : Dev nD) (t : Fin cfg0.N) : FVec Ideal S1024x512 .f32 := iblk m c 0 t
abbrev keyBlock (c : Dev nD) (t : Fin cfg0.N) : FVec Ideal S1024x512 .f32 := iblk m c 1 t
abbrev queryLabels (c : Dev nD) (t : Fin cfg0.N) : IVec S1024x1 32 := iblk m c 2 t
abbrev keyLabels (c : Dev nD) (t : Fin cfg0.N) : IVec S1x1024 32 := iblk m c 3 t

/-- The printed index maps over the grid: point t is query block t / 8 and key block t % 8. -/
theorem index_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

/-- The label column the region finds is the label vector viewed as a column. -/
theorem labelColumn_eq (c : Dev nD) :
    (V m c main_v0 : S8192x1.Idx → BitVec 32) = shapeCast S8192x1 (argL m c) shapeCasts_S8192_S8192x1 := by
  show StableHlo.after hostOps0 (fun b => m (c, b)) (Proc.devRef .tc main_v0) = _
  after_results
  rfl

/-- The label row the region finds is the label vector viewed as a row. -/
theorem labelRow_eq (c : Dev nD) :
    (V m c main_v1 : S1x8192.Idx → BitVec 32) = shapeCast S1x8192 (argL m c) shapeCasts_S8192_S1x8192 := by
  show StableHlo.after hostOps0 (fun b => m (c, b)) (Proc.devRef .tc main_v1) = _
  after_results
  rfl

/-- Row p of the query block is row 1024 (t / 8) + p of the first matrix. -/
theorem queryBlock_apply (c : Dev nD) (t : Fin cfg0.N) (p : Fin 1024) (k : Fin 512) (r : Fin 8192)
    (hr : r.val = 1024 * (t.val / 8) + p.val) : queryBlock m c t (ix2 p k) = argA m c (ix2 r k) := by
  obtain ⟨e0, e1, -⟩ := index_facts t
  unfold queryBlock iblk
  rw [View.read_apply]
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 1024 + 1 * p.val = r.val; omega
  | ⟨1, _⟩ => show win0_0.index t (1 : Fin 2) * 512 + 1 * k.val = k.val; omega

/-- Row q of the key block is row 1024 (t % 8) + q of the second matrix. -/
theorem keyBlock_apply (c : Dev nD) (t : Fin cfg0.N) (q : Fin 1024) (k : Fin 512) (s : Fin 8192)
    (hs : s.val = 1024 * (t.val % 8) + q.val) : keyBlock m c t (ix2 q k) = argB m c (ix2 s k) := by
  obtain ⟨-, -, e0, e1, -⟩ := index_facts t
  unfold keyBlock iblk
  rw [View.read_apply]
  show V m c main_arg1 (((cfg0.win 1).blk t).view.emb (ix2 q k)) = _
  rw [V_main_arg1]
  refine congrArg (m ((c : Thread nD τ).loc main_arg1)) (funext fun a => Fin.ext ?_)
  match a with
  | ⟨0, _⟩ => show win0_1.index t (0 : Fin 2) * 1024 + 1 * q.val = s.val; omega
  | ⟨1, _⟩ => show win0_1.index t (1 : Fin 2) * 512 + 1 * k.val = k.val; omega

/-- Entry p of the query labels is the label of row 1024 (t / 8) + p. -/
theorem queryLabels_apply (c : Dev nD) (t : Fin cfg0.N) (p : Fin 1024) (r : Fin 8192)
    (hr : r.val = 1024 * (t.val / 8) + p.val) : queryLabels m c t (ix2 p (0 : Fin 1)) = argL m c (ix1 r) := by
  obtain ⟨-, -, -, -, e0, e1, -⟩ := index_facts t
  unfold queryLabels iblk
  rw [View.read_apply]
  show (V m c main_v0 : S8192x1.Idx → BitVec 32) (((cfg0.win 2).blk t).view.emb (ix2 p (0 : Fin 1))) = _
  rw [labelColumn_eq]
  have e : ((cfg0.win 2).blk t).view.emb (ix2 p (0 : Fin 1)) = ix2 r (0 : Fin 1) := funext fun a => Fin.ext (by
    match a with
    | ⟨0, _⟩ => show win0_2.index t (0 : Fin 2) * 1024 + 1 * p.val = r.val; omega
    | ⟨1, _⟩ => show win0_2.index t (1 : Fin 2) * 1 + 1 * 0 = 0; omega)
  rw [e, castToColumn_apply]

/-- Entry q of the key labels is the label of row 1024 (t % 8) + q. -/
theorem keyLabels_apply (c : Dev nD) (t : Fin cfg0.N) (q : Fin 1024) (s : Fin 8192)
    (hs : s.val = 1024 * (t.val % 8) + q.val) : keyLabels m c t (ix2 (0 : Fin 1) q) = argL m c (ix1 s) := by
  obtain ⟨-, -, -, -, -, -, e0, e1, -⟩ := index_facts t
  unfold keyLabels iblk
  rw [View.read_apply]
  show (V m c main_v1 : S1x8192.Idx → BitVec 32) (((cfg0.win 3).blk t).view.emb (ix2 (0 : Fin 1) q)) = _
  rw [labelRow_eq]
  have e : ((cfg0.win 3).blk t).view.emb (ix2 (0 : Fin 1) q) = ix2 (0 : Fin 1) s := funext fun a => Fin.ext (by
    match a with
    | ⟨0, _⟩ => show win0_3.index t (0 : Fin 2) * 1 + 1 * 0 = 0; omega
    | ⟨1, _⟩ => show win0_3.index t (1 : Fin 2) * 1024 + 1 * q.val = s.val; omega)
  rw [e, shapeCast_a_1a_apply]

end Cert.KernelIdeal.Blocks

end
-- ==== Proof.Running.lean ====
/-
  The two columns of running sums, point by point.

  Query row r = 1024 i + p meets the key rows one block of 1024 at a time. After key block j the kept-weights column holds, at
  row p, the sum of row r's kept weights over the key rows 0 .. 1024 (j + 1) - 1, and the all-weights column the sum of all its
  weights over the same rows: the first key block starts both from zero, every later one adds its 1024 terms to what the
  point before left. At the last key block both sums run over all 8192 key rows, and the body copies them out.
-/
import proofs.«167037_j4964982194342_1_alg».proof.Proof.Pieces
import proofs.«167037_j4964982194342_1_alg».proof.Proof.Payloads
import proofs.«167037_j4964982194342_1_alg».proof.Proof.BlockReads

set_option maxRecDepth 16384

noncomputable section

open scoped BigOperators
open Idealize.ShloMosaic Idealize.ShloMosaic.TcCoe Idealize.SL.Sem Idealize.ShloMosaic.ValueIdx

namespace Cert.KernelIdeal.Sums

open Cert.KernelIdeal Cert.KernelIdeal.Gen Cert.NtXent Cert.KernelIdeal.Blocks Cert.KernelIdeal.Pay Cert.KernelIdeal.Left

variable (m : (ℓ : Loc nD τ sig) → Buf (Elt Ideal) ℓ)

/-- The weight of query row r against key row s. -/
def allTerm (c : Dev nD) (r : Fin 8192) : Fin 8192 → EReal :=
  fun s => weight (rowOf (argA m c) r) (rowOf (argB m c) s)

/-- The same, kept where the two rows' labels agree. -/
def keptTerm (c : Dev nD) (r : Fin 8192) : Fin 8192 → EReal :=
  fun s => sameLabel (argL m c (ix1 r)) (argL m c (ix1 s)) (weight (rowOf (argA m c) r) (rowOf (argB m c) s))

theorem allSum_eq (c : Dev nD) (r : Fin 8192) : ∑ s : Fin 8192, allTerm m c r s = allSum (argA m c) (argB m c) r := rfl
theorem posSum_eq (c : Dev nD) (r : Fin 8192) : ∑ s : Fin 8192, keptTerm m c r s = posSum (argA m c) (argB m c) (argL m c) r := rfl

/-! ## One block's 1024 terms -/

/-- The kept weights of row p of the query block against the key block's rows are terms 1024 j .. 1024 j + 1023 of row r. -/
theorem blockKept (c : Dev nD) (t : Fin cfg0.N) (p : Fin 1024) (r : Fin 8192) (hr : r.val = 1024 * (t.val / 8) + p.val) :
    ∑ q : Fin 1024, sameLabel (queryLabels m c t (ix2 p (0 : Fin 1))) (keyLabels m c t (ix2 (0 : Fin 1) q))
        (weight (fun k => queryBlock m c t (ix2 p k)) (fun k => keyBlock m c t (ix2 q k)))
      = ∑ q : Fin 1024, padded (keptTerm m c r) (1024 * (t.val % 8) + q.val) := by
  refine Finset.sum_congr rfl fun q _ => ?_
  have hs : 1024 * (t.val % 8) + q.val < 8192 := by have := q.isLt; omega
  rw [padded_of_lt _ hs, queryLabels_apply m c t p r hr, keyLabels_apply m c t q ⟨_, hs⟩ rfl]
  have ea : (fun k => queryBlock m c t (ix2 p k)) = rowOf (argA m c) r := funext fun k => queryBlock_apply m c t p k r hr
  have eb : (fun k => keyBlock m c t (ix2 q k)) = rowOf (argB m c) ⟨_, hs⟩ := funext fun k => keyBlock_apply m c t q k ⟨_, hs⟩ rfl
  rw [ea, eb]
  rfl

/-- All the weights of row p of the query block against the key block's rows, likewise. -/
theorem blockAll (c : Dev nD) (t : Fin cfg0.N) (p : Fin 1024) (r : Fin 8192) (hr : r.val = 1024 * (t.val / 8) + p.val) :
    ∑ q : Fin 1024, weight (fun k => queryBlock m c t (ix2 p k)) (fun k => keyBlock m c t (ix2 q k))
      = ∑ q : Fin 1024, padded (allTerm m c r) (1024 * (t.val % 8) + q.val) := by
  refine Finset.sum_congr rfl fun q _ => ?_
  have hs : 1024 * (t.val % 8) + q.val < 8192 := by have := q.isLt; omega
  rw [padded_of_lt _ hs]
  have ea : (fun k => queryBlock m c t (ix2 p k)) = rowOf (argA m c) r := funext fun k => queryBlock_apply m c t p k r hr
  have eb : (fun k => keyBlock m c t (ix2 q k)) = rowOf (argB m c) ⟨_, hs⟩ := funext fun k => keyBlock_apply m c t q k ⟨_, hs⟩ rfl
  rw [ea, eb]
  rfl

/-! ## What the two columns hold after each point, as payload terms -/

/-- At a first key block: the zero column plus the block's sums. -/
theorem columns_first (c : Dev nD) (t : Fin cfg0.N) (h0 : t.val % 8 = 0) (h1 : ¬t.val % 8 = 7) :
    (outsAt0 m c t.val t.isLt).2.2.1 = k0_pay1 (F := Ideal) (k0_pay6 (F := Ideal) (queryBlock m c t) (keyBlock m c t) (queryLabels m c t) (keyLabels m c t)) (k0_pay3 (F := Ideal))
    ∧ (outsAt0 m c t.val t.isLt).2.2.2 = k0_pay2 (F := Ideal) (k0_pay5 (F := Ideal) (queryBlock m c t) (keyBlock m c t)) (k0_pay4 (F := Ideal)) := by
  rw [outsAt0_A m c t h0 h1]
  dsimp only
  exact ⟨keptSums_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun hh => h1 ((hcond0_1 t).mp hh)) (iblk m c 0 t) (iblk m c 1 t) (iblk m c 2 t) (iblk m c 3 t),
    allSums_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun hh => h1 ((hcond0_1 t).mp hh)) (iblk m c 0 t) (iblk m c 1 t) (iblk m c 2 t) (iblk m c 3 t)⟩

/-- At a middle key block: what the point before left plus the block's sums. -/
theorem columns_middle (c : Dev nD) (t : Fin cfg0.N) (h0 : ¬t.val % 8 = 0) (h1 : ¬t.val % 8 = 7) :
    (outsAt0 m c t.val t.isLt).2.2.1 = k0_pay1 (F := Ideal) (k0_pay6 (F := Ideal) (queryBlock m c t) (keyBlock m c t) (queryLabels m c t) (keyLabels m c t))
        (outsAt0 m c (t.val - 1) (Nat.lt_of_le_of_lt (Nat.sub_le _ _) t.isLt)).2.2.1
    ∧ (outsAt0 m c t.val t.isLt).2.2.2 = k0_pay2 (F := Ideal) (k0_pay5 (F := Ideal) (queryBlock m c t) (keyBlock m c t))
        (outsAt0 m c (t.val - 1) (Nat.lt_of_le_of_lt (Nat.sub_le _ _) t.isLt)).2.2.2 := by
  rw [outsAt0_B m c t h0 h1]
  dsimp only
  exact ⟨keptSums_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) (fun hh => h1 ((hcond0_1 t).mp hh)) (iblk m c 0 t) (iblk m c 1 t) (iblk m c 2 t) (iblk m c 3 t) _ _,
    allSums_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) (fun hh => h1 ((hcond0_1 t).mp hh)) (iblk m c 0 t) (iblk m c 1 t) (iblk m c 2 t) (iblk m c 3 t) _ _⟩

/-- At a last key block: the same for the two columns, and the two result blocks hold the two columns. -/
theorem columns_last (c : Dev nD) (t : Fin cfg0.N) (h0 : ¬t.val % 8 = 0) (h1 : t.val % 8 = 7) :
    ((outsAt0 m c t.val t.isLt).2.2.1 = k0_pay1 (F := Ideal) (k0_pay6 (F := Ideal) (queryBlock m c t) (keyBlock m c t) (queryLabels m c t) (keyLabels m c t))
        (outsAt0 m c (t.val - 1) (Nat.lt_of_le_of_lt (Nat.sub_le _ _) t.isLt)).2.2.1
    ∧ (outsAt0 m c t.val t.isLt).2.2.2 = k0_pay2 (F := Ideal) (k0_pay5 (F := Ideal) (queryBlock m c t) (keyBlock m c t))
        (outsAt0 m c (t.val - 1) (Nat.lt_of_le_of_lt (Nat.sub_le _ _) t.isLt)).2.2.2)
    ∧ (outsAt0 m c t.val t.isLt).1 = (outsAt0 m c t.val t.isLt).2.2.1
    ∧ (outsAt0 m c t.val t.isLt).2.1 = (outsAt0 m c t.val t.isLt).2.2.2 := by
  rw [outsAt0_C m c t h0 h1]
  dsimp only
  exact ⟨⟨keptSums_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) _ _,
      allSums_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) _ _⟩,
    (keptOut_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) _ _).trans
      (keptSums_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) _ _).symm,
    (allOut_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) _ _).trans
      (allSums_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) _ _).symm⟩

/-! ## The columns as partial sums over the key rows -/

/-- The sum over the first 1024 j naturals and the next 1024 terms make the sum over the first 1024 (j + 1). -/
theorem extend_sum (g : ℕ → EReal) (j : ℕ) :
    ∑ x ∈ Finset.range (1024 * j), g x + ∑ q : Fin 1024, g (1024 * j + q.val) = ∑ x ∈ Finset.range (1024 * (j + 1)), g x := by
  rw [mul_add_one, sum_range_next_block]

/-- From zero, the first 1024 terms are the sum over the first 1024 naturals. -/
theorem start_sum (g : ℕ → EReal) :
    (0 : EReal) + ∑ q : Fin 1024, g (1024 * 0 + q.val) = ∑ x ∈ Finset.range (1024 * (0 + 1)), g x := by
  rw [← extend_sum g 0, Nat.mul_zero, Finset.range_zero, Finset.sum_empty]

/-- One block added to the kept-weights column, at row p: the 1024 terms of row r that the key block holds. -/
theorem kept_step (c : Dev nD) (t : Fin cfg0.N) (p : Fin 1024) (r : Fin 8192) (hr : r.val = 1024 * (t.val / 8) + p.val)
    (acc : FVec Ideal S1024x1 .f32) :
    k0_pay1 (F := Ideal) (k0_pay6 (F := Ideal) (queryBlock m c t) (keyBlock m c t) (queryLabels m c t) (keyLabels m c t)) acc (ix2 p (0 : Fin 1))
      = acc (ix2 p (0 : Fin 1)) + ∑ q : Fin 1024, padded (keptTerm m c r) (1024 * (t.val % 8) + q.val) :=
  (keptStep_apply (queryBlock m c t) (keyBlock m c t) (queryLabels m c t) (keyLabels m c t) acc p).trans
    (congrArg (acc (ix2 p (0 : Fin 1)) + ·) (blockKept m c t p r hr))

/-- One block added to the all-weights column, at row p. -/
theorem all_step (c : Dev nD) (t : Fin cfg0.N) (p : Fin 1024) (r : Fin 8192) (hr : r.val = 1024 * (t.val / 8) + p.val)
    (acc : FVec Ideal S1024x1 .f32) :
    k0_pay2 (F := Ideal) (k0_pay5 (F := Ideal) (queryBlock m c t) (keyBlock m c t)) acc (ix2 p (0 : Fin 1))
      = acc (ix2 p (0 : Fin 1)) + ∑ q : Fin 1024, padded (allTerm m c r) (1024 * (t.val % 8) + q.val) :=
  (allStep_apply (queryBlock m c t) (keyBlock m c t) acc p).trans
    (congrArg (acc (ix2 p (0 : Fin 1)) + ·) (blockAll m c t p r hr))

/-- After a first key block the columns hold the first 1024 terms. -/
theorem first_block (c : Dev nD) (t : Fin cfg0.N) (h0 : t.val % 8 = 0) (p : Fin 1024) (r : Fin 8192)
    (hr : r.val = 1024 * (t.val / 8) + p.val) :
    (outsAt0 m c t.val t.isLt).2.2.1 (ix2 p (0 : Fin 1)) = ∑ x ∈ Finset.range (1024 * (t.val % 8 + 1)), padded (keptTerm m c r) x
    ∧ (outsAt0 m c t.val t.isLt).2.2.2 (ix2 p (0 : Fin 1)) = ∑ x ∈ Finset.range (1024 * (t.val % 8 + 1)), padded (allTerm m c r) x := by
  obtain ⟨ek, ea⟩ := columns_first m c t h0 (by omega)
  rw [ek, ea]
  constructor
  · refine (kept_step m c t p r hr _).trans ?_
    rw [resetKept_eq, zeroColumn_apply, h0]
    exact start_sum _
  · refine (all_step m c t p r hr _).trans ?_
    rw [resetAll_eq, zeroColumn_apply, h0]
    exact start_sum _

/-- After a later key block the columns hold 1024 terms more than after the point before. -/
theorem later_block (c : Dev nD) (t : Fin cfg0.N) (h0 : ¬t.val % 8 = 0) (p : Fin 1024) (r : Fin 8192)
    (hr : r.val = 1024 * (t.val / 8) + p.val)
    (ih : (outsAt0 m c (t.val - 1) (Nat.lt_of_le_of_lt (Nat.sub_le _ _) t.isLt)).2.2.1 (ix2 p (0 : Fin 1))
          = ∑ x ∈ Finset.range (1024 * ((t.val - 1) % 8 + 1)), padded (keptTerm m c r) x
        ∧ (outsAt0 m c (t.val - 1) (Nat.lt_of_le_of_lt (Nat.sub_le _ _) t.isLt)).2.2.2 (ix2 p (0 : Fin 1))
          = ∑ x ∈ Finset.range (1024 * ((t.val - 1) % 8 + 1)), padded (allTerm m c r) x) :
    (outsAt0 m c t.val t.isLt).2.2.1 (ix2 p (0 : Fin 1)) = ∑ x ∈ Finset.range (1024 * (t.val % 8 + 1)), padded (keptTerm m c r) x
    ∧ (outsAt0 m c t.val t.isLt).2.2.2 (ix2 p (0 : Fin 1)) = ∑ x ∈ Finset.range (1024 * (t.val % 8 + 1)), padded (allTerm m c r) x := by
  have hj : (t.val - 1) % 8 + 1 = t.val % 8 := by omega
  have hcols := (show _ ∧ _ from by
    by_cases h1 : t.val % 8 = 7
    · exact (columns_last m c t h0 h1).1
    · exact columns_middle m c t h0 h1)
  obtain ⟨ek, ea⟩ := hcols
  rw [ek, ea]
  constructor
  · refine (kept_step m c t p r hr _).trans ?_
    rw [ih.1, hj]
    exact extend_sum _ _
  · refine (all_step m c t p r hr _).trans ?_
    rw [ih.2, hj]
    exact extend_sum _ _

/-- After point n = 8 i + j the columns hold, at row p, the sums of row 1024 i + p's terms over the key rows below 1024 (j + 1). -/
theorem running (c : Dev nD) (n : ℕ) : ∀ (h : n < cfg0.N) (p : Fin 1024) (r : Fin 8192), r.val = 1024 * (n / 8) + p.val →
    (outsAt0 m c n h).2.2.1 (ix2 p (0 : Fin 1)) = ∑ x ∈ Finset.range (1024 * (n % 8 + 1)), padded (keptTerm m c r) x
    ∧ (outsAt0 m c n h).2.2.2 (ix2 p (0 : Fin 1)) = ∑ x ∈ Finset.range (1024 * (n % 8 + 1)), padded (allTerm m c r) x := by
  induction n with
  | zero => exact fun h p r hr => first_block m c ⟨0, h⟩ rfl p r hr
  | succ n ih =>
    intro h p r hr
    by_cases h0 : (n + 1) % 8 = 0
    · exact first_block m c ⟨n + 1, h⟩ h0 p r hr
    · exact later_block m c ⟨n + 1, h⟩ h0 p r hr (ih (Nat.lt_of_succ_lt h) p r (by omega))

/-- At a last key block the two result blocks hold, at row p, row 1024 i + p's two full sums. -/
theorem results_last (c : Dev nD) (t : Fin cfg0.N) (h1 : t.val % 8 = 7) (p : Fin 1024) (r : Fin 8192)
    (hr : r.val = 1024 * (t.val / 8) + p.val) :
    (outsAt0 m c t.val t.isLt).1 (ix2 p (0 : Fin 1)) = posSum (argA m c) (argB m c) (argL m c) r
    ∧ (outsAt0 m c t.val t.isLt).2.1 (ix2 p (0 : Fin 1)) = allSum (argA m c) (argB m c) r := by
  obtain ⟨-, e4, e5⟩ := columns_last m c t (by omega) h1
  obtain ⟨hk, ha⟩ := running m c t.val t.isLt p r hr
  rw [e4, e5, hk, ha, h1]
  exact ⟨(sum_range_padded _).trans (posSum_eq m c r), (sum_range_padded _).trans (allSum_eq m c r)⟩

end Cert.KernelIdeal.Sums

end
-- ==== Proof.KernelValue.lean ====
/-
  What the kernel program ends with.

  The two result blocks are written back only at a query block's last key block, and those eight blocks tile the two [8192, 1]
  result arrays: row r of the first array ends at the sum of row r's kept weights over all 8192 key rows, row r of the second
  at the sum of all its weights. The program then views both arrays as vectors and computes the loss from them.
-/
import proofs.«167037_j4964982194342_1_alg».proof.Proof.Running

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.NtXent Cert.KernelIdeal.Blocks Cert.KernelIdeal.Sums

variable (m : (ℓ : Loc nD τ sig) → Buf (Elt Ideal) ℓ) (ρ : Dev nD → PrngReg)

/-- What the first result array ends holding: row r's sum of kept weights. -/
abbrev posArr (c : Dev nD) : Buf (Elt Ideal) ((c : Thread nD τ).loc main_v2_0) :=
  fun i => posSum (argA m c) (argB m c) (argL m c) (i 0)

/-- What the second result array ends holding: row r's sum of all weights. -/
abbrev allArr (c : Dev nD) : Buf (Elt Ideal) ((c : Thread nD τ).loc main_v2_1) :=
  fun i => allSum (argA m c) (argB m c) (i 0)

/-! ## What a last key block writes back -/

theorem flushed_pos (c : Dev nD) (t : Fin cfg0.N) (hf : (cfg0.win 4).flush t = true) :
    (dats m 0 c).flushed 4 t = ((cfg0.win 4).blk t).view.read (Elt Ideal) (posArr m c) := by
  have h1 : t.val % 8 = 7 := (flush0_4 t).mp hf
  have hN : t.val < 64 := lt_of_lt_of_eq t.isLt (show cfg0.N = 64 from N_0)
  obtain ⟨-, -, -, -, -, -, -, -, e0, e1, -⟩ := index_facts t
  show (cfg0.win 4).cut (grid0.coords t) ((dats m 0 c).after 4 t) = _
  rw [after0_4]
  funext y
  have hy0 : (y 0).val < 1024 := (y 0).isLt
  have hy1 : (y 1).val < 1 := (y 1).isLt
  rw [View.read_apply]
  show (outsAt0 m c t.val t.isLt).1 ((cfg0.win 4).xinj (grid0.coords t) y) = posArr m c (((cfg0.win 4).blk t).view.emb y)
  have ey : (cfg0.win 4).xinj (grid0.coords t) y = ix2 (⟨(y 0).val, hy0⟩ : Fin 1024) (0 : Fin 1) := funext fun a => Fin.ext (by
    match a with
    | ⟨0, _⟩ => rfl
    | ⟨1, _⟩ => show (y 1).val = 0; omega)
  refine (congrArg (outsAt0 m c t.val t.isLt).1 ey).trans ?_
  refine ((results_last m c t h1 ⟨(y 0).val, hy0⟩ ⟨1024 * (t.val / 8) + (y 0).val, by omega⟩ rfl).1).trans ?_
  exact congrArg (posSum (argA m c) (argB m c) (argL m c)) (Fin.ext (by
    show 1024 * (t.val / 8) + (y 0).val = win0_4.index t (0 : Fin 2) * 1024 + 1 * (y 0).val; omega))

theorem flushed_all (c : Dev nD) (t : Fin cfg0.N) (hf : (cfg0.win 5).flush t = true) :
    (dats m 0 c).flushed 5 t = ((cfg0.win 5).blk t).view.read (Elt Ideal) (allArr m c) := by
  have h1 : t.val % 8 = 7 := (flush0_5 t).mp hf
  have hN : t.val < 64 := lt_of_lt_of_eq t.isLt (show cfg0.N = 64 from N_0)
  obtain ⟨-, -, -, -, -, -, -, -, -, -, e0, e1⟩ := index_facts t
  show (cfg0.win 5).cut (grid0.coords t) ((dats m 0 c).after 5 t) = _
  rw [after0_5]
  funext y
  have hy0 : (y 0).val < 1024 := (y 0).isLt
  have hy1 : (y 1).val < 1 := (y 1).isLt
  rw [View.read_apply]
  show (outsAt0 m c t.val t.isLt).2.1 ((cfg0.win 5).xinj (grid0.coords t) y) = allArr m c (((cfg0.win 5).blk t).view.emb y)
  have ey : (cfg0.win 5).xinj (grid0.coords t) y = ix2 (⟨(y 0).val, hy0⟩ : Fin 1024) (0 : Fin 1) := funext fun a => Fin.ext (by
    match a with
    | ⟨0, _⟩ => rfl
    | ⟨1, _⟩ => show (y 1).val = 0; omega)
  refine (congrArg (outsAt0 m c t.val t.isLt).2.1 ey).trans ?_
  refine ((results_last m c t h1 ⟨(y 0).val, hy0⟩ ⟨1024 * (t.val / 8) + (y 0).val, by omega⟩ rfl).2).trans ?_
  exact congrArg (allSum (argA m c) (argB m c)) (Fin.ext (by
    show 1024 * (t.val / 8) + (y 0).val = win0_5.index t (0 : Fin 2) * 1024 + 1 * (y 0).val; omega))

/-! ## The eight written blocks tile each result array -/

theorem mem_block_pos (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v2_0).slice (win0_4.rect t)).set ↔ _
  rw [View.set_slice_whole, Rect.mem_set_unit]
  exact Iff.rfl

theorem mem_block_all (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v2_1).slice (win0_5.rect t)).set ↔ _
  rw [View.set_slice_whole, Rect.mem_set_unit]
  exact Iff.rfl

/-- Row r lies in the block written at point 8 (r / 1024) + 7. -/
theorem cover_pos (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 64 := N_0
  have ht : 8 * ((i 0).val / 1024) + 7 < cfg0.N := by omega
  obtain ⟨-, -, -, -, -, -, -, -, e0, e1, -⟩ := index_facts ⟨8 * ((i 0).val / 1024) + 7, ht⟩
  refine ⟨⟨8 * ((i 0).val / 1024) + 7, ht⟩, (flush0_4 _).mpr (by show (8 * ((i 0).val / 1024) + 7) % 8 = 7; omega), ?_⟩
  rw [mem_block_pos]
  intro a
  have e0' : win0_4.index ⟨8 * ((i 0).val / 1024) + 7, ht⟩ (0 : Fin 2) = (8 * ((i 0).val / 1024) + 7) / 8 := e0
  match a with
  | ⟨0, _⟩ =>
    show win0_4.index ⟨8 * ((i 0).val / 1024) + 7, ht⟩ (0 : Fin 2) * 1024 ≤ (i 0).val ∧ (i 0).val < win0_4.index ⟨8 * ((i 0).val / 1024) + 7, ht⟩ (0 : Fin 2) * 1024 + 1024
    omega
  | ⟨1, _⟩ =>
    show win0_4.index ⟨8 * ((i 0).val / 1024) + 7, ht⟩ (1 : Fin 2) * 1 ≤ (i 1).val ∧ (i 1).val < win0_4.index ⟨8 * ((i 0).val / 1024) + 7, ht⟩ (1 : Fin 2) * 1 + 1
    omega

theorem cover_all (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 64 := N_0
  have ht : 8 * ((i 0).val / 1024) + 7 < cfg0.N := by omega
  obtain ⟨-, -, -, -, -, -, -, -, -, -, e0, e1⟩ := index_facts ⟨8 * ((i 0).val / 1024) + 7, ht⟩
  refine ⟨⟨8 * ((i 0).val / 1024) + 7, ht⟩, (flush0_5 _).mpr (by show (8 * ((i 0).val / 1024) + 7) % 8 = 7; omega), ?_⟩
  rw [mem_block_all]
  intro a
  have e0' : win0_5.index ⟨8 * ((i 0).val / 1024) + 7, ht⟩ (0 : Fin 2) = (8 * ((i 0).val / 1024) + 7) / 8 := e0
  match a with
  | ⟨0, _⟩ =>
    show win0_5.index ⟨8 * ((i 0).val / 1024) + 7, ht⟩ (0 : Fin 2) * 1024 ≤ (i 0).val ∧ (i 0).val < win0_5.index ⟨8 * ((i 0).val / 1024) + 7, ht⟩ (0 : Fin 2) * 1024 + 1024
    omega
  | ⟨1, _⟩ =>
    show win0_5.index ⟨8 * ((i 0).val / 1024) + 7, ht⟩ (1 : Fin 2) * 1 ≤ (i 1).val ∧ (i 1).val < win0_5.index ⟨8 * ((i 0).val / 1024) + 7, ht⟩ (1 : Fin 2) * 1 + 1
    omega

/-- The first result array after the region. -/
theorem final_pos (c : Dev nD) : (dats m 0 c).arrAt 4 cfg0.N = posArr m c :=
  (dats m 0 c).arrAt_eq_of_cover 4 (posArr m c) (flushed_pos m c) cover_pos

/-- The second result array after the region. -/
theorem final_all (c : Dev nD) : (dats m 0 c).arrAt 5 cfg0.N = allArr m c :=
  (dats m 0 c).arrAt_eq_of_cover 5 (allArr m c) (flushed_all m c) cover_all

/-! ## The host operations after the region -/

theorem tail_result (c : Dev nD) :
    Pipeline.afterTail₀ cfgs (dats m) 0 (V0 m) [hostOps1] c main_v9
      = lossTail reducesTo_S8192_S_d0 h_S_ (fun i => posSum (argA m c) (argB m c) (argL m c) (i 0)) (fun i => allSum (argA m c) (argB m c) (i 0)) := by
  unfold Pipeline.afterTail₀
  show StableHlo.after hostOps1 _ (Proc.devRef .tc main_v9) = _
  after_results
  have hP := (Pipeline.withArrays_arr spec0 launch0.win.arr_inj c (V0 m c) (fun w => (dats m 0 c).arrAt w cfg0.N) 4).trans (final_pos m c)
  have hQ := (Pipeline.withArrays_arr spec0 launch0.win.arr_inj c (V0 m c) (fun w => (dats m 0 c).arrAt w cfg0.N) 5).trans (final_all m c)
  unfold lossTail
  congr 5
  · funext i
    rw [eq_ix1 i]
    refine (castFromColumn_apply _ _ (i 0)).trans ?_
    exact congrFun hP (ix2 (i 0) (0 : Fin 1))
  · funext i
    rw [eq_ix1 i]
    refine (castFromColumn_apply _ _ (i 0)).trans ?_
    exact congrFun hQ (ix2 (i 0) (0 : Fin 1))

/-! ## The run, read -/

/-- Every weakly fair execution of the idealized kernel program ends with its result at the loss of the two vectors of
    sums of weights, and its arguments unchanged. -/
theorem run : θ_run defs (onTc (τ := τ) (main (F := Ideal))) ⟨m, fun _ => 0, ρ⟩ fun r => ∀ c : Dev nD,
      r.2.mem ((c.tc : Thread nD τ).loc main_v9)
        = lossTail reducesTo_S8192_S_d0 h_S_ (fun i => posSum (argA m c) (argB m c) (argL m c) (i 0)) (fun i => allSum (argA m c) (argB m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v9 (Pipeline.mem_restRefs_of main_v9 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Result

end
-- ==== Proof.RefSide.lean ====
/-
  The reference program, read entry by entry over the extended reals.

  It scales every row of both [8192, 512] matrices to unit length (the length kept at least eps), multiplies the first by
  the transpose of the second, divides by 1/2, exponentiates, and sums every row of the result twice: once whole, once
  keeping only the columns whose label equals the row's. Its sums start from zero and its quotient by 1/2 is a product
  with 2, so the two vectors of sums are the sums of weights stated over plain rows.
-/
import proofs.«167037_j4964982194342_1_alg».proof.Proof.Gen.ReferenceIdeal.Run
import proofs.«167037_j4964982194342_1_alg».proof.Proof.Gen.ReferenceIdeal.Read
import proofs.«167037_j4964982194342_1_alg».proof.Proof.RowAlgebra

noncomputable section

open scoped BigOperators
open Idealize.ShloMosaic Idealize.ShloMosaic.ValueIdx

namespace Cert.ReferenceIdeal.Ref

open Cert.ReferenceIdeal Cert.ReferenceIdeal.Gen Cert.ReferenceIdeal.Read Cert.NtXent

variable (A B : (⟨S8192x512, .f32⟩ : BufTy).Contents (Elt Ideal)) (L : (⟨S8192, .i32⟩ : BufTy).Contents (Elt Ideal))

/-! ## The first matrix's rows, scaled -/

theorem sumSquaresA (r : Fin 8192) : val_main_v1 (F := Ideal) A (ix1 r) = ∑ k : Fin 512, A (ix2 r k) * A (ix2 r k) := by
  rw [val_main_v1_apply]
  show Ideal.ofBits .f32 0x00000000#32 + ∑ k : Fin 512, A (idx_main_v1 (ix1 r) k) * A (idx_main_v1 (ix1 r) k) = _
  rw [Ideal.ofBits_zero_f32, zero_add]
  refine Finset.sum_congr rfl fun k _ => ?_
  have e : idx_main_v1 (ix1 r) k = ix2 r k := funext fun a => by match a with | ⟨0, _⟩ => rfl | ⟨1, _⟩ => rfl
  rw [e]

theorem clampA (r : Fin 8192) : val_main_v5 (F := Ideal) A (ix2 r (0 : Fin 1)) = clampNorm (rowOf A r) := by
  show max (Ideal.sqrt (val_main_v2 (F := Ideal) A (ix2 r (0 : Fin 1)))) (val_main_v4 (F := Ideal) (ix2 r (0 : Fin 1))) = _
  rw [val_main_v2_apply, val_main_v4_apply]
  have e : idx_main_v2 (ix2 r (0 : Fin 1)) = ix1 r := funext fun a => by match a with | ⟨0, _⟩ => rfl
  rw [e, sumSquaresA]
  rfl

theorem scaledA (r : Fin 8192) (k : Fin 512) : val_main_v7 (F := Ideal) A (ix2 r k) = unitRow (rowOf A r) k := by
  show Ideal.div (A (ix2 r k)) (val_main_v6 (F := Ideal) A (ix2 r k)) = _
  rw [val_main_v6_apply]
  have e : idx_main_v6 (ix2 r k) = ix2 r (0 : Fin 1) := funext fun a => by match a with | ⟨0, _⟩ => rfl | ⟨1, _⟩ => rfl
  rw [e, clampA]
  rfl

/-! ## The second matrix's rows, scaled and transposed -/

theorem sumSquaresB (r : Fin 8192) : val_main_v9 (F := Ideal) B (ix1 r) = ∑ k : Fin 512, B (ix2 r k) * B (ix2 r k) := by
  rw [val_main_v9_apply]
  show Ideal.ofBits .f32 0x00000000#32 + ∑ k : Fin 512, B (idx_main_v9 (ix1 r) k) * B (idx_main_v9 (ix1 r) k) = _
  rw [Ideal.ofBits_zero_f32, zero_add]
  refine Finset.sum_congr rfl fun k _ => ?_
  have e : idx_main_v9 (ix1 r) k = ix2 r k := funext fun a => by match a with | ⟨0, _⟩ => rfl | ⟨1, _⟩ => rfl
  rw [e]

theorem clampB (r : Fin 8192) : val_main_v13 (F := Ideal) B (ix2 r (0 : Fin 1)) = clampNorm (rowOf B r) := by
  show max (Ideal.sqrt (val_main_v10 (F := Ideal) B (ix2 r (0 : Fin 1)))) (val_main_v12 (F := Ideal) (ix2 r (0 : Fin 1))) = _
  rw [val_main_v10_apply, val_main_v12_apply]
  have e : idx_main_v10 (ix2 r (0 : Fin 1)) = ix1 r := funext fun a => by match a with | ⟨0, _⟩ => rfl
  rw [e, sumSquaresB]
  rfl

theorem scaledB (r : Fin 8192) (k : Fin 512) : val_main_v15 (F := Ideal) B (ix2 r k) = unitRow (rowOf B r) k := by
  show Ideal.div (B (ix2 r k)) (val_main_v14 (F := Ideal) B (ix2 r k)) = _
  rw [val_main_v14_apply]
  have e : idx_main_v14 (ix2 r k) = ix2 r (0 : Fin 1) := funext fun a => by match a with | ⟨0, _⟩ => rfl | ⟨1, _⟩ => rfl
  rw [e, clampB]
  rfl

theorem scaledBT (k : Fin 512) (s : Fin 8192) : val_main_v16 (F := Ideal) B (ix2 k s) = unitRow (rowOf B s) k := by
  rw [val_main_v16_apply]
  have e : idx_main_v16 (ix2 k s) = ix2 s k := funext fun a => by match a with | ⟨0, _⟩ => rfl | ⟨1, _⟩ => rfl
  rw [e, scaledB]

/-! ## Similarities and weights -/

theorem similarity (r s : Fin 8192) :
    val_main_v17 (F := Ideal) A B (ix2 r s) = ∑ k : Fin 512, unitRow (rowOf A r) k * unitRow (rowOf B s) k := by
  rw [val_main_v17_apply]
  refine Finset.sum_congr rfl fun k _ => ?_
  have el : lidx_main_v17 (ix2 r s) k = ix2 r k := funext fun a => by match a with | ⟨0, _⟩ => rfl | ⟨1, _⟩ => rfl
  have er : ridx_main_v17 (ix2 r s) k = ix2 k s := funext fun a => by match a with | ⟨0, _⟩ => rfl | ⟨1, _⟩ => rfl
  rw [el, er, scaledA, scaledBT]

theorem weightAt (r s : Fin 8192) : val_main_v20 (F := Ideal) A B (ix2 r s) = weight (rowOf A r) (rowOf B s) := by
  show Ideal.exp (Ideal.div (val_main_v17 (F := Ideal) A B (ix2 r s)) (val_main_v18 (F := Ideal) (ix2 r s))) = _
  rw [val_main_v18_apply]
  show Ideal.exp (Ideal.div (val_main_v17 (F := Ideal) A B (ix2 r s)) (Ideal.ofBits .f32 0x3F000000#32)) = _
  rw [div_half_eq_mul_two, similarity]
  rfl

theorem keptAt (r s : Fin 8192) :
    val_main_v26 (F := Ideal) A B L (ix2 r s) = sameLabel (L (ix1 r)) (L (ix1 s)) (weight (rowOf A r) (rowOf B s)) := by
  show Scalar.select (IntOp.cmpi .eq (val_main_v23 (F := Ideal) L (ix2 r s)) (val_main_v24 (F := Ideal) L (ix2 r s)))
    (val_main_v20 (F := Ideal) A B (ix2 r s)) (val_main_call0_v1 (F := Ideal) (ix2 r s)) = _
  rw [val_main_v23_apply, val_main_v21_apply, val_main_v24_apply, val_main_v22_apply, val_main_call0_v1_apply, weightAt]
  have e1 : idx_main_v21 (idx_main_v23 (ix2 r s)) = ix1 r := funext fun a => by match a with | ⟨0, _⟩ => rfl
  have e2 : idx_main_v22 (idx_main_v24 (ix2 r s)) = ix1 s := funext fun a => by match a with | ⟨0, _⟩ => rfl
  rw [e1, e2]
  rfl

/-! ## The two vectors of sums, and the result -/

theorem posAt (r : Fin 8192) : val_main_v27 (F := Ideal) A B L (ix1 r) = posSum A B L r := by
  rw [val_main_v27_apply]
  show Ideal.ofBits .f32 0x00000000#32 + ∑ k : Fin 8192, val_main_v26 (F := Ideal) A B L (idx_main_v27 (ix1 r) k) = _
  rw [Ideal.ofBits_zero_f32, zero_add]
  refine Finset.sum_congr rfl fun s _ => ?_
  have e : idx_main_v27 (ix1 r) s = ix2 r s := funext fun a => by match a with | ⟨0, _⟩ => rfl | ⟨1, _⟩ => rfl
  rw [e, keptAt]

theorem allAt (r : Fin 8192) : val_main_v28 (F := Ideal) A B (ix1 r) = allSum A B r := by
  rw [val_main_v28_apply]
  show Ideal.ofBits .f32 0x00000000#32 + ∑ k : Fin 8192, val_main_v20 (F := Ideal) A B (idx_main_v28 (ix1 r) k) = _
  rw [Ideal.ofBits_zero_f32, zero_add]
  refine Finset.sum_congr rfl fun s _ => ?_
  have e : idx_main_v28 (ix1 r) s = ix2 r s := funext fun a => by match a with | ⟨0, _⟩ => rfl | ⟨1, _⟩ => rfl
  rw [e, weightAt]

/-- The reference's result is the loss of the two vectors of sums of weights. -/
theorem result_eq :
    val_main_v33 (F := Ideal) A B L
      = lossTail reducesTo_S8192_S_d0 h_S_ (fun i => posSum A B L (i 0)) (fun i => allSum A B (i 0)) := by
  have hp : val_main_v27 (F := Ideal) A B L = fun i => posSum A B L (i 0) := funext fun i => by
    rw [eq_ix1 i]; exact posAt A B L _
  have ha : val_main_v28 (F := Ideal) A B = fun i => allSum A B (i 0) := funext fun i => by
    rw [eq_ix1 i]; exact allAt A B _
  show lossTail reducesTo_S8192_S_d0 h_S_ (val_main_v27 (F := Ideal) A B L) (val_main_v28 (F := Ideal) A B) = _
  rw [hp, ha]

end Cert.ReferenceIdeal.Ref

end
-- ==== Proof.lean ====
/-
  The supervised contrastive loss of two [8192, 512] matrices and a label vector, computed two ways, is one number over the
  extended reals.

  Both programs scale every row of both matrices to unit length (the length kept at least eps), take for every query row r and
  key row s the weight exp(2 <a_r, b_s>) — the kernel multiplies the similarity by 2, the reference divides it by 1/2, the same
  on every extended real —, and need for every query row the sum of its weights over all key rows and the sum over the key rows
  that carry its label. The reference sums each row of the [8192, 8192] weight matrix at once. The kernel walks an 8 x 8 grid of
  1024-row blocks: for each query block it starts two columns of running sums from zero at the first key block, adds one key
  block's 1024 terms per point, and copies the columns out at the last key block, so that row r ends at the same two sums, added
  in another grouping — addition of extended reals is associative and commutative, so no finiteness is needed. From the two
  vectors of sums both programs compute minus the mean of log(pos / all) by the same host operations.
-/
import proofs.«167037_j4964982194342_1_alg».proof.Defs
import proofs.«167037_j4964982194342_1_alg».proof.Proof.Gen.Kernel
import proofs.«167037_j4964982194342_1_alg».proof.Proof.Gen.Kernel.Skeleton
import proofs.«167037_j4964982194342_1_alg».proof.Proof.Gen.Kernel.Launch
import proofs.«167037_j4964982194342_1_alg».proof.Proof.Gen.Kernel.Points
import proofs.«167037_j4964982194342_1_alg».proof.Proof.Gen.Kernel.Frame
import proofs.«167037_j4964982194342_1_alg».proof.Proof.Gen.KernelIdeal
import proofs.«167037_j4964982194342_1_alg».proof.Proof.Gen.KernelIdeal.Skeleton
import proofs.«167037_j4964982194342_1_alg».proof.Proof.Gen.KernelIdeal.Launch
import proofs.«167037_j4964982194342_1_alg».proof.Proof.Gen.KernelIdeal.Points
import proofs.«167037_j4964982194342_1_alg».proof.Proof.Gen.KernelIdeal.Frame
import proofs.«167037_j4964982194342_1_alg».proof.Proof.Gen.ReferenceIdeal
import proofs.«167037_j4964982194342_1_alg».proof.Proof.Gen.Pre_finite_inputs
import proofs.«167037_j4964982194342_1_alg».proof.Proof.KernelValue
import proofs.«167037_j4964982194342_1_alg».proof.Proof.RefSide
import Idealize.ShloMosaic.Adequacy
import Idealize.ShloMosaic.Init

noncomputable section

namespace Cert.Proof

open Idealize.ShloMosaic Idealize.SL.Sem

/-- The kernel program as printed runs to the end and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From arguments that agree, both programs end at the loss of the same two vectors of sums of weights. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.Ref.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
